-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65536x8 : Shape := ⟨2, ![65536, 8]⟩
abbrev S4096x1 : Shape := ⟨2, ![4096, 1]⟩
abbrev S2097152 : Shape := ⟨1, ![2097152]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x8 : S_.BroadcastsInDim S65536x8 (![] : Fin 0 → Fin S65536x8.rank)
  reducesTo_S65536x8_S_d0_1 : S65536x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4x2048x4096 .f32) (main_arg1 : FVec F S65536x8 .f32) (main_arg2 : FVec F S4096x1 .f32) (main_arg3 : IVec S2097152 32) (main_arg4 : IVec S2097152 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4x2048x4096 : Shape := ⟨3, ![4, 2048, 4096]⟩
abbrev S65536x8 : Shape := ⟨2, ![65536, 8]⟩
abbrev S4096x1 : Shape := ⟨2, ![4096, 1]⟩
abbrev S2097152 : Shape := ⟨1, ![2097152]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8 : Shape := ⟨1, ![8]⟩
abbrev S1x8 : Shape := ⟨2, ![1, 8]⟩
abbrev S8192x4096 : Shape := ⟨2, ![8192, 4096]⟩
abbrev S512x4096 : Shape := ⟨2, ![512, 4096]⟩
abbrev S512x512 : Shape := ⟨2, ![512, 512]⟩

abbrev nBuf : Space → Nat
  | .hbm => 39
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S4096x1, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2097152x1, .i32⟩
  | .hbm, ⟨18, _⟩ => ⟨S8, .i32⟩
  | .hbm, ⟨19, _⟩ => ⟨S1x8, .i32⟩
  | .hbm, ⟨20, _⟩ => ⟨S2097152x8, .i32⟩
  | .hbm, ⟨21, _⟩ => ⟨S2097152x8, .i32⟩
  | .hbm, ⟨22, _⟩ => ⟨S2097152x8, .i32⟩
  | .hbm, ⟨23, _⟩ => ⟨S_, .i32⟩
  | .hbm, ⟨24, _⟩ => ⟨S2097152x8, .i32⟩
  | .hbm, ⟨25, _⟩ => ⟨S2097152x8, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S8192x4096, .f32⟩
  | .hbm, ⟨37, _⟩ => ⟨S8192x4096, .f32⟩
  | .hbm, ⟨38, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  bcast_S8_S1x8_1 : S8.BroadcastsInDim S1x8 (![1] : Fin 1 → Fin S1x8.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  gather_S65536x8_S2097152x1_S2097152x8_1_0_n_n_0_1_18_wf : GatherDims.WF S65536x8 S2097152x1 S2097152x8 [1] [0] [] [0] [] 1 ![1, 8]
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def gather_S65536x8_S2097152x1_S2097152x8_1_0_n_n_0_1_18 : GatherDims S65536x8 S2097152x1 S2097152x8 where
  offsetDims := [1]
  collapsedSliceDims := [0]
  operandBatchingDims := []
  startIndicesBatchingDims := []
  startIndexMap := [0]
  indexVectorDim := 1
  sliceSizes := ![1, 8]
  wf := gather_S65536x8_S2097152x1_S2097152x8_1_0_n_n_0_1_18_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v26) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65536x8 : Shape := ⟨2, ![65536, 8]⟩
abbrev S4096x1 : Shape := ⟨2, ![4096, 1]⟩
abbrev S2097152 : Shape := ⟨1, ![2097152]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8 : Shape := ⟨1, ![8]⟩
abbrev S1x8 : Shape := ⟨2, ![1, 8]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S4096x1, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2097152x1, .i32⟩
  | .hbm, ⟨18, _⟩ => ⟨S8, .i32⟩
  | .hbm, ⟨19, _⟩ => ⟨S1x8, .i32⟩
  | .hbm, ⟨20, _⟩ => ⟨S2097152x8, .i32⟩
  | .hbm, ⟨21, _⟩ => ⟨S2097152x8, .i32⟩
  | .hbm, ⟨22, _⟩ => ⟨S2097152x8, .i32⟩
  | .hbm, ⟨23, _⟩ => ⟨S_, .i32⟩
  | .hbm, ⟨24, _⟩ => ⟨S2097152x8, .i32⟩
  | .hbm, ⟨25, _⟩ => ⟨S2097152x8, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S4096x4096, .f32⟩
  | .hbm, ⟨34, _⟩ => ⟨S4096x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  bcast_S8_S1x8_1 : S8.BroadcastsInDim S1x8 (![1] : Fin 1 → Fin S1x8.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  bcast_S_S4096x4096 : S_.BroadcastsInDim S4096x4096 (![] : Fin 0 → Fin S4096x4096.rank)
  gather_S65536x8_S2097152x1_S2097152x8_1_0_n_n_0_1_18_wf : GatherDims.WF S65536x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S65536x8_S2097152x1_S2097152x8_1_0_n_n_0_1_18 : GatherDims S65536x8 S2097152x1 S2097152x8 where
  offsetDims := [1]
  collapsedSliceDims := [0]
  operandBatchingDims := []
  startIndicesBatchingDims := []
  startIndexMap := [0]
  indexVectorDim := 1
  sliceSizes := ![1, 8]
  wf := gather_S65536x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once over literal shapes and away from either program.

  A linear layer without bias: for activations `x[b, s, d]` and a weight `w[o, d]`,
      y[b, s, o] = ∑_d x[b, s, d] · w[o, d].
  One program contracts the rank-3 activations directly; the other flattens `(b, s)` to one row axis
  `r = b · 2048 + s`, multiplies the `8192 × 4096` rows by the transposed weight, and restores the two axes.
  Row-major flattening sends `(b, s, d)` to `(b · 2048 + s, d)` and the result `(b, s, o)` to
  `(b · 2048 + s, o)`, so the two are the same sum, term by term: no law of the extended reals beyond
  reading the same products in the same order is used.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.Linear

/-- Activations `[batch, seq, features]`; also the result `[batch, seq, out]`, the layer being square. -/
abbrev SAct : Shape := ⟨3, ![4, 2048, 4096]⟩
/-- The same with `(batch, seq)` flattened to one row axis. -/
abbrev SRows : Shape := ⟨2, ![8192, 4096]⟩
/-- The weight `[out, features]`. -/
abbrev SWt : Shape := ⟨2, ![4096, 4096]⟩

/-- The layer on rank-3 activations: `y[b, s, o] = ∑_d x[b, s, d] · w[o, d]`. -/
def linear (x : SAct.Idx → EReal) (w : SWt.Idx → EReal) : SAct.Idx → EReal :=
  fun i => ∑ k : Fin 4096, x (ix3 (i 0) (i 1) k) * w (ix2 (i 2) k)

/-- Rows times the transposed weight: `z[r, o] = ∑_d a[r, d] · w[o, d]`. -/
def rowsTimesT (a : SRows.Idx → EReal) (w : SWt.Idx → EReal) : SRows.Idx → EReal :=
  fun j => ∑ k : Fin 4096, a (ix2 (j 0) k) * w (ix2 (j 1) k)

/-- Flattening the two leading axes, multiplying the rows by the transposed weight and unflattening is the
    layer: row `b · 2048 + s` of the flattened activations is `x[b, s, ·]`, and entry `(b, s, o)` of the
    unflattened product is entry `(b · 2048 + s, o)` of the product. -/
theorem unflatten_rowsTimesT_flatten (x : SAct.Idx → EReal) (w : SWt.Idx → EReal)
    (hf : SAct.ShapeCasts SRows) (hu : SRows.ShapeCasts SAct) :
    shapeCast SAct (rowsTimesT (shapeCast SRows x hf) w) hu = linear x w := by
  funext i
  have hb : (i 0).val < 4 := (i 0).isLt
  have hs : (i 1).val < 2048 := (i 1).isLt
  have ho : (i 2).val < 4096 := (i 2).isLt
  have hr : (i 0).val * 2048 + (i 1).val < 8192 := by omega
  rw [shapeCast_apply _ hu i (ix2 (⟨(i 0).val * 2048 + (i 1).val, hr⟩ : Fin 8192) (i 2))
    (by rw [Shape.rowMajor_val_two, Shape.rowMajor_val_three]; rfl)]
  unfold rowsTimesT linear
  refine Finset.sum_congr rfl fun k _ => ?_
  congr 1
  exact shapeCast_apply x hf (ix2 (⟨(i 0).val * 2048 + (i 1).val, hr⟩ : Fin 8192) k) (ix3 (i 0) (i 1) k)
    (by rw [Shape.rowMajor_val_three, Shape.rowMajor_val_two]; rfl)

end Cert.Linear

end
-- ==== Proof.RefValue.lean ====
/-
  The reference computes the layer of `Spec.lean` directly.

  Its last operation contracts the rank-3 activations `x[b, s, d]` with the weight `w[o, d]` over `d`; read at
  an index `(b, s, o)` that is `∑_k x[b, s, k] · w[o, k]`, the left factor at the output's two leading
  coordinates and the right factor at its last one. The weight is whatever the earlier host operations build from
  the codebook, the scales, the code indices and the packed signs: it is carried here as one opaque term and
  never opened.
-/
import proofs.«406307_j40252433498283_3_alg».proof.Proof.Gen.ReferenceIdeal.Read
import proofs.«406307_j40252433498283_3_alg».proof.Proof.Spec

noncomputable section

open scoped BigOperators

namespace Cert.ReferenceIdeal.RefValue

open Cert.ReferenceIdeal Cert.ReferenceIdeal.Read Idealize.ShloMosaic Idealize.ShloMosaic.ValueIdx

/-- The reference's result is the layer applied to the activations and the built weight. -/
theorem result_eq (x0 : (⟨S4x2048x4096, .f32⟩ : BufTy).Contents (Elt Ideal)) (x1 : (⟨S65536x8, .f32⟩ : BufTy).Contents (Elt Ideal))
    (x2 : (⟨S4096x1, .f32⟩ : BufTy).Contents (Elt Ideal)) (x3 x4 : (⟨S2097152, .i32⟩ : BufTy).Contents (Elt Ideal)) :
    val_main_v25 (F := Ideal) x0 x1 x2 x3 x4 = Cert.Linear.linear x0 (val_main_v24 (F := Ideal) x1 x2 x3 x4) := by
  funext i
  rw [val_main_v25_apply]
  unfold Cert.Linear.linear
  refine Finset.sum_congr rfl fun k _ => ?_
  have el : lidx_main_v25 i k = ix3 (i 0) (i 1) k :=
    funext fun a => by match a with | ⟨0, _⟩ => rfl | ⟨1, _⟩ => rfl | ⟨2, _⟩ => rfl
  have er : ridx_main_v25 i k = ix2 (i 2) k :=
    funext fun a => by match a with | ⟨0, _⟩ => rfl | ⟨1, _⟩ => rfl
  rw [el, er]
  rfl

end Cert.ReferenceIdeal.RefValue

end
-- ==== Proof.Weight.lean ====
/-
  What the host prepares before the region.

  The weight `w[o, d]`: code words gathered from the codebook by the (wrapped) code indices and laid out as a
  `4096 × 4096` matrix, each output row scaled by its scale, each entry signed by `2 · bit − 1` of the unpacked
  sign bits. It is ONE term of the four parameter arrays and is never opened: both programs build it with the same
  operations, so only its identity matters. Its last step before the region is a change of float format, which on
  extended reals is the identity. The activations `x[b, s, d]` are flattened row-major to rows
  `a[b · 2048 + s, d]`.
-/
import proofs.«406307_j40252433498283_3_alg».proof.Proof.Gen.KernelIdeal.Frame
import Idealize.ShloMosaic.Lib.StableHlo.Run
import Idealize.ShloMosaic.PureOps.Ideal

noncomputable section

namespace Cert.KernelIdeal.KValue

open Cert.KernelIdeal Cert.KernelIdeal.Gen Idealize.ShloMosaic Idealize.ShloMosaic.TcCoe Idealize.SL.Sem
open Idealize.ShloMosaic.StableHlo

section
variable {F : FTy → Type} [FloatOps F]

/-- The weight as the host operations before the region compose it from the codebook `x1`, the per-row scales
    `x2`, the code indices `x3` and the packed sign bits `x4`, before its final change of float format. -/
def weight (x1 : (⟨S65536x8, .f32⟩ : BufTy).Contents (Elt F)) (x2 : (⟨S4096x1, .f32⟩ : BufTy).Contents (Elt F))
    (x3 x4 : (⟨S2097152, .i32⟩ : BufTy).Contents (Elt F)) : (⟨S4096x4096, .f32⟩ : BufTy).Contents (Elt F) :=
  mulf (mulf (shapeCast _ (Host.gather gather_S65536x8_S2097152x1_S2097152x8_1_0_n_n_0_1_18 (x1) (broadcastInDim S2097152x1 ![0] bcast_S2097152_S2097152x1_0 (select (cmpi .slt (x3) (broadcastInDim S2097152 ![] bcast_S_S2097152 (constantI S_ 32 0#32))) (addi (x3) (broadcastInDim S2097152 ![] bcast_S_S2097152 (constantI S_ 32 65536#32))) (x3)))) shapeCasts_S2097152x8_S4096x4096) (broadcastInDim S4096x4096 ![0, 1] bcast_S4096x1_S4096x4096_0_1 (x2))) (sitofp .f32 (subi (muli (broadcastInDim S4096x4096 ![] bcast_S_S4096x4096 (constantI S_ 32 2#32)) (shapeCast _ (andi (Host.shrsi (broadcastInDim S2097152x8 ![0, 1] bcast_S2097152x1_S2097152x8_0_1 (broadcastInDim S2097152x1 ![0] bcast_S2097152_S2097152x1_0 (x4))) (broadcastInDim S2097152x8 ![0, 1] bcast_S1x8_S2097152x8_0_1 (broadcastInDim S1x8 ![1] bcast_S8_S1x8_1 (iotaInDim S8 32 0)))) (broadcastInDim S2097152x8 ![] bcast_S_S2097152x8 (constantI S_ 32 1#32))) shapeCasts_S2097152x8_S4096x4096)) (broadcastInDim S4096x4096 ![] bcast_S_S4096x4096 (constantI S_ 32 1#32))))

end

variable (m : (ℓ : Loc nD τ sig) → Buf (Elt Ideal) ℓ)

/-- The flattened activations as the region finds them. -/
abbrev rowsArr (c : Dev nD) : Vec Ideal S8192x4096 .f32 := V m c main_v26
/-- The weight as the region finds it. -/
abbrev wtArr (c : Dev nD) : Vec Ideal S4096x4096 .bf16 := V m c main_v25

/-- The rows are the activations with the two leading axes flattened. -/
theorem rowsArr_eq (c : Dev nD) :
    rowsArr m c = shapeCast S8192x4096 (m ((c : Thread nD τ).loc main_arg0)) shapeCasts_S4x2048x4096_S8192x4096 := by
  show StableHlo.after hostOps0 (fun b => m (c, b)) (Proc.devRef .tc main_v26) = _
  after_results_simp <;> rfl

set_option maxHeartbeats 2000000 in
/-- The weight window's array is the built weight: the change of format that ends its construction is the identity
    on extended reals. -/
theorem wtArr_eq (c : Dev nD) :
    wtArr m c = weight (F := Ideal) (m ((c : Thread nD τ).loc main_arg1)) (m ((c : Thread nD τ).loc main_arg2))
      (m ((c : Thread nD τ).loc main_arg3)) (m ((c : Thread nD τ).loc main_arg4)) := by
  show StableHlo.after hostOps0 (fun b => m (c, b)) (Proc.devRef .tc main_v25) = _
  after_results_simp <;> rfl

end Cert.KernelIdeal.KValue

end
-- ==== Proof.MatmulBlock.lean ====
/-
  One block of the kernel's product, read at an index.

  The body loads a `512 × 4096` block `a` of rows and a `512 × 4096` block `b` of weight rows, changes the
  float format of `a` (the identity on extended reals), and multiplies with both operands contracted over
  their second axis into a zero accumulator. So entry `(p, q)` of the `512 × 512` result is
      ∑_k a[p, k] · b[q, k]:
  the accumulator contributes the zero of the extended reals, the left operand is read at `(p, k)` (its row is
  the output's row), the right one at `(q, k)` (its row is the output's COLUMN: the weight enters transposed).
-/
import proofs.«406307_j40252433498283_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The left operand's row is the output's row. -/
theorem lhs_row (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
/-- The left operand's column is the contraction index. -/
theorem lhs_col (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
/-- The right operand's row is the output's column. -/
theorem rhs_row (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
/-- The right operand's column is the contraction index. -/
theorem rhs_col (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- Entry `(p, q)` of the body's product block is `∑_k a[p, k] · b[q, k]`. -/
theorem pay_apply (a : Vec Ideal S512x4096 .f32) (b : Vec Ideal S512x4096 .bf16) (p q : Fin 512) :
    k0_pay1 (F := Ideal) a b (ix2 p q) = ∑ k : Fin 4096, a (ix2 p k) * b (ix2 q k) := by
  unfold k0_pay1
  simp only [matmul]
  rw [Ideal.matmul_constant_zero_apply, ← Equiv.sum_comp (ValueIdx.contrEquiv1 dot_S512x4096_S512x4096_S512x512_1_1_0_0_n_n 4096 rfl rfl).symm]
  refine Finset.sum_congr rfl fun k _ => ?_
  have hk := ValueIdx.contrEquiv1_symm_val dot_S512x4096_S512x4096_S512x512_1_1_0_0_n_n 4096 rfl rfl k
  have el : dot_S512x4096_S512x4096_S512x512_1_1_0_0_n_n.lhsIdx (ix2 p q) ((ValueIdx.contrEquiv1 dot_S512x4096_S512x4096_S512x512_1_1_0_0_n_n 4096 rfl rfl).symm k) = ix2 p k := funext fun a => Fin.ext (by
    match a with
    | ⟨0, _⟩ => exact lhs_row _ _
    | ⟨1, _⟩ => exact (lhs_col _ _).trans hk)
  have er : dot_S512x4096_S512x4096_S512x512_1_1_0_0_n_n.rhsIdx (ix2 p q) ((ValueIdx.contrEquiv1 dot_S512x4096_S512x4096_S512x512_1_1_0_0_n_n 4096 rfl rfl).symm k) = ix2 q k := funext fun a => Fin.ext (by
    match a with
    | ⟨0, _⟩ => exact rhs_row _ _
    | ⟨1, _⟩ => exact (rhs_col _ _).trans hk)
  rw [el, er, truncf_apply, shapeCast_self, shapeCast_self]

end Cert.KernelIdeal.Block

end
-- ==== Proof.Blocks.lean ====
/-
  From the region's blocks to its result array.

  The region runs over a `16 × 8` grid. Point `(i, j)` reads rows `512 i … 512 i + 511` of the flattened activations
  `a` and rows `512 j … 512 j + 511` of the weight `w` (both at block column zero: the contracted axis is whole), and
  writes block `(i, j)` of its result. With the body's block `∑_k a'[p, k] · w'[q, k]` (`MatmulBlock.lean`) that is the
  restriction to block `(i, j)` of ONE whole-array function, `z[r, o] = ∑_d a[r, d] · w[o, d]` (`Spec.lean`'s
  `rowsTimesT`): row `p` of the block is row `512 i + p` of `a`, column `q` is row `512 j + q` of `w`. The 128 blocks
  tile the `8192 × 4096` array — entry `(r, o)` lies in block `(r / 512, o / 512)` — so the region leaves `z`.
-/
import proofs.«406307_j40252433498283_3_alg».proof.Proof.Gen.KernelIdeal.Frame
import proofs.«406307_j40252433498283_3_alg».proof.Proof.MatmulBlock
import proofs.«406307_j40252433498283_3_alg».proof.Proof.Spec
import proofs.«406307_j40252433498283_3_alg».proof.Proof.Weight
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block -/

/-- A product block against the whole product: if `a` is the rows of `X` from `512 i₀` on and `b` the rows of `Wt`
    from `512 j₀` on (read through `e0`, `e1`), the body's block at `j` is `X · Wtᵀ` at row `512 i₀ + j[0]`, column
    `512 j₀ + j[1]` (the index `e2 j`). -/
theorem block_eq (a : Vec Ideal S512x4096 .f32) (b : Vec Ideal S512x4096 .bf16)
    (X : Vec Ideal S8192x4096 .f32) (Wt : Vec Ideal S4096x4096 .bf16) (i₀ j₀ : Nat)
    (e0 : S512x4096.Idx → S8192x4096.Idx) (e1 : S512x4096.Idx → S4096x4096.Idx) (e2 : S512x512.Idx → S8192x4096.Idx)
    (ha : ∀ y, a y = X (e0 y)) (hb : ∀ y, b y = Wt (e1 y))
    (h0 : ∀ y, ((e0 y) 0).val = i₀ * 512 + (y 0).val ∧ ((e0 y) 1).val = (y 1).val)
    (h1 : ∀ y, ((e1 y) 0).val = j₀ * 512 + (y 0).val ∧ ((e1 y) 1).val = (y 1).val)
    (h2 : ∀ j, ((e2 j) 0).val = i₀ * 512 + (j 0).val ∧ ((e2 j) 1).val = j₀ * 512 + (j 1).val)
    (j : S512x512.Idx) :
    k0_pay1 (F := Ideal) a b j = Cert.Linear.rowsTimesT X Wt (e2 j) := by
  obtain ⟨p, q, rfl⟩ : ∃ (p q : Fin 512), j = ix2 p q := ⟨j 0, j 1, eq_ix2 j⟩
  rw [Cert.KernelIdeal.Block.pay_apply]
  unfold Cert.Linear.rowsTimesT
  refine Finset.sum_congr rfl fun k _ => ?_
  rw [ha, hb]
  obtain ⟨a0, a1⟩ := h0 (ix2 p k)
  obtain ⟨b0, b1⟩ := h1 (ix2 q k)
  obtain ⟨c0, c1⟩ := h2 (ix2 p q)
  have eX : e0 (ix2 p k) = ix2 (e2 (ix2 p q) 0) k := funext fun d => Fin.ext (by
    match d with
    | ⟨0, _⟩ => exact a0.trans c0.symm
    | ⟨1, _⟩ => exact a1)
  have eW : e1 (ix2 q k) = ix2 (e2 (ix2 p q) 1) k := funext fun d => Fin.ext (by
    match d with
    | ⟨0, _⟩ => exact b0.trans c1.symm
    | ⟨1, _⟩ => exact b1)
  rw [eX, eW]
  rfl

/-! ## From blocks to the array -/

variable (m : (ℓ : Loc nD τ sig) → Buf (Elt Ideal) ℓ)

theorem hz : (![0, 0] : Fin 2 → Nat) = fun _ => 0 := funext fun a => by fin_cases a <;> rfl

/-- The printed index maps, decided over the grid: the row window follows the output's block row, the weight
    window the output's block COLUMN, and both stay at block column zero. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- Every block of the `16 × 8` tiling is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- What point `t` writes back is block `t` of the whole product of the rows by the transposed weight. -/
theorem flushed_eq (c : Dev nD) (t : Fin cfg0.N) :
    (dats m 0 c).flushed 2 t = ((cfg0.win 2).blk t).view.read (Elt Ideal) (Cert.Linear.rowsTimesT (rowsArr m c) (wtArr m c)) := by
  show (cfg0.win 2).cut (grid0.coords t) ((dats m 0 c).after 2 t) = _
  rw [after0_2]
  unfold out0_2
  rw [View.canon_unit_zero hz]
  simp only [View.ld_unit_zero (S := S512x4096) hz]
  obtain ⟨f0, f1, f2, f3⟩ := idx_facts t
  funext j
  exact block_eq (iblk m c 0 t) (iblk m c 1 t) (rowsArr m c) (wtArr m c) (win0_2.index t (0 : Fin 2)) (win0_2.index t (1 : Fin 2))
    (fun y => ((cfg0.win 0).blk t).view.emb y) (fun y => ((cfg0.win 1).blk t).view.emb y) (fun y => ((cfg0.win 2).blk t).view.emb y)
    (fun y => rfl) (fun y => rfl)
    (fun y => ⟨by show win0_0.index t (0 : Fin 2) * 512 + 1 * (y 0).val = _; omega, by show win0_0.index t (1 : Fin 2) * 4096 + 1 * (y 1).val = _; omega⟩)
    (fun y => ⟨by show win0_1.index t (0 : Fin 2) * 512 + 1 * (y 0).val = _; omega, by show win0_1.index t (1 : Fin 2) * 4096 + 1 * (y 1).val = _; omega⟩)
    (fun y => ⟨by show win0_2.index t (0 : Fin 2) * 512 + 1 * (y 0).val = _; omega, by show win0_2.index t (1 : Fin 2) * 512 + 1 * (y 1).val = _; omega⟩)
    j

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v27).slice (win0_2.rect t)).set ↔ _
  rw [View.set_slice_whole, Rect.mem_set_unit]
  exact Iff.rfl

/-- The blocks tile the result: entry `(r, o)` is in block `(r / 512, o / 512)`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The region leaves the whole product in its result array. -/
theorem final (c : Dev nD) :
    (dats m 0 c).arrAt 2 cfg0.N = Cert.Linear.rowsTimesT (rowsArr m c) (wtArr m c) :=
  (dats m 0 c).arrAt_eq_of_cover 2 (Cert.Linear.rowsTimesT (rowsArr m c) (wtArr m c)) (fun t _ => flushed_eq m c t) cover

end Cert.KernelIdeal.KValue

end
-- ==== Proof.KernelRun.lean ====
/-
  The kernel program's run, read: its result is the layer of `Spec.lean`.

  The region leaves `z[r, o] = ∑_d a[r, d] · w[o, d]` in its result array (`Blocks.lean`), with `a` the flattened
  activations and `w` the built weight (`Weight.lean`). The one host line after the region splits the row axis back
  into `(batch, seq)`; flatten, multiply, unflatten is the layer `y[b, s, o] = ∑_d x[b, s, d] · w[o, d]` (`Spec.lean`).
  No operation writes a parameter array, so all five end as launched.
-/
import proofs.«406307_j40252433498283_3_alg».proof.Proof.Gen.KernelIdeal.Frame
import proofs.«406307_j40252433498283_3_alg».proof.Proof.Spec
import proofs.«406307_j40252433498283_3_alg».proof.Proof.Weight
import proofs.«406307_j40252433498283_3_alg».proof.Proof.Blocks
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The region's result array, as the host line after the region finds it, is the product of the flattened
    activations by the transposed built weight. -/
theorem region_result (c : Dev nD) :
    (Pipeline.withArrays (cfgs 0).spec c (V0 m c) (fun w => (dats m 0 c).arrAt w (cfgs 0).N) (Proc.devRef .tc main_v27) : Vec Ideal S8192x4096 .f32)
      = Cert.Linear.rowsTimesT (shapeCast S8192x4096 (m ((c : Thread nD τ).loc main_arg0)) shapeCasts_S4x2048x4096_S8192x4096)
          (weight (F := Ideal) (m ((c : Thread nD τ).loc main_arg1)) (m ((c : Thread nD τ).loc main_arg2))
            (m ((c : Thread nD τ).loc main_arg3)) (m ((c : Thread nD τ).loc main_arg4))) :=
  (Pipeline.withArrays_arr spec0 launch0.win.arr_inj c _ _ 2).trans
    ((final m c).trans (by rw [rowsArr_eq, wtArr_eq]))

/-- The program's result: the product with its row axis split back into `(batch, seq)` is the layer applied to the
    activations and the built weight. -/
theorem tail_eq (c : Dev nD) :
    Pipeline.afterTail₀ cfgs (dats m) 0 (V0 m) [hostOps1] c main_v28
      = Cert.Linear.linear (m ((c : Thread nD τ).loc main_arg0))
          (weight (F := Ideal) (m ((c : Thread nD τ).loc main_arg1)) (m ((c : Thread nD τ).loc main_arg2))
            (m ((c : Thread nD τ).loc main_arg3)) (m ((c : Thread nD τ).loc main_arg4))) := by
  unfold Pipeline.afterTail₀
  show StableHlo.after hostOps1 _ (Proc.devRef .tc main_v28) = _
  after_results
  exact (congrArg (fun z : Vec Ideal S8192x4096 .f32 => shapeCast S4x2048x4096 z shapeCasts_S8192x4096_S4x2048x4096) (region_result m c)).trans
    (Cert.Linear.unflatten_rowsTimesT_flatten _ _ shapeCasts_S4x2048x4096_S8192x4096 shapeCasts_S8192x4096_S4x2048x4096)

/-- Every weakly fair execution of the program terminates with its result at the layer of the activations and the
    built weight, and the five parameter arrays as launched. -/
theorem run : θ_run defs (onTc (τ := τ) (main (F := Ideal))) ⟨m, fun _ => 0, ρ⟩ fun r => ∀ c : Dev nD,
      r.2.mem ((c.tc : Thread nD τ).loc main_v28)
        = Cert.Linear.linear (m ((c.tc : Thread nD τ).loc main_arg0))
            (weight (F := Ideal) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v28 (Pipeline.mem_restRefs_of main_v28 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KValue

end
-- ==== Proof.lean ====
/-
  Both programs compute a linear layer without bias on the extended reals,
      y[b, s, o] = ∑_d x[b, s, d] · w[o, d],
  with the SAME weight `w`: code words gathered from the codebook, scaled per output row and signed by the unpacked
  sign bits, built by the same host operations in both.

  The reference contracts the rank-3 activations with `w` directly (`RefValue.lean`). The kernel program flattens
  `(b, s)` to one row axis, changes the weight's float format (the identity here), computes the product of the rows by
  the transposed weight in `512 × 512` blocks over a `16 × 8` grid, each block contracting the whole feature axis into a
  zero accumulator (`MatmulBlock.lean`, `Blocks.lean`), and splits the row axis back (`KernelRun.lean`). Flatten,
  multiply, unflatten is the layer (`Spec.lean`): the two results are the same sum of the same products in the same
  order, so no law of the extended reals is needed and the finiteness of the inputs is never used.

  The idealization rewrote nothing, so `preserves` is trivial; the two kernel frames are the generated ones, and the
  reference's frame is its generated run with the result dropped.
-/
import proofs.«406307_j40252433498283_3_alg».proof.Defs
import proofs.«406307_j40252433498283_3_alg».proof.Proof.Gen.Kernel
import proofs.«406307_j40252433498283_3_alg».proof.Proof.Gen.Kernel.Skeleton
import proofs.«406307_j40252433498283_3_alg».proof.Proof.Gen.Kernel.Launch
import proofs.«406307_j40252433498283_3_alg».proof.Proof.Gen.Kernel.Points
import proofs.«406307_j40252433498283_3_alg».proof.Proof.Gen.Kernel.Frame
import proofs.«406307_j40252433498283_3_alg».proof.Proof.Gen.KernelIdeal
import proofs.«406307_j40252433498283_3_alg».proof.Proof.Gen.KernelIdeal.Skeleton
import proofs.«406307_j40252433498283_3_alg».proof.Proof.Gen.KernelIdeal.Launch
import proofs.«406307_j40252433498283_3_alg».proof.Proof.Gen.KernelIdeal.Points
import proofs.«406307_j40252433498283_3_alg».proof.Proof.Gen.KernelIdeal.Frame
import proofs.«406307_j40252433498283_3_alg».proof.Proof.Gen.ReferenceIdeal
import proofs.«406307_j40252433498283_3_alg».proof.Proof.Gen.ReferenceIdeal.Run
import proofs.«406307_j40252433498283_3_alg».proof.Proof.Gen.ReferenceIdeal.Read
import proofs.«406307_j40252433498283_3_alg».proof.Proof.Gen.Pre_finite_inputs
import proofs.«406307_j40252433498283_3_alg».proof.Proof.RefValue
import proofs.«406307_j40252433498283_3_alg».proof.Proof.KernelRun
import Idealize.ShloMosaic.Adequacy
import Idealize.ShloMosaic.Init

noncomputable section

namespace Cert.Proof

open Idealize.ShloMosaic Idealize.SL.Sem

/-- The two programs build the weight with the same operations of the same four arrays: one term. -/
theorem weight_eq (x1 : (⟨Cert.ReferenceIdeal.S65536x8, .f32⟩ : BufTy).Contents (Elt Ideal))
    (x2 : (⟨Cert.ReferenceIdeal.S4096x1, .f32⟩ : BufTy).Contents (Elt Ideal))
    (x3 x4 : (⟨Cert.ReferenceIdeal.S2097152, .i32⟩ : BufTy).Contents (Elt Ideal)) :
    Cert.ReferenceIdeal.Read.val_main_v24 (F := Ideal) x1 x2 x3 x4 = Cert.KernelIdeal.KValue.weight (F := Ideal) x1 x2 x3 x4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five parameter arrays both programs end with the layer of the activations and
    the one weight in their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, weight_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
